-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S100000x1 : Shape := ⟨2, ![100000, 1]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S100000x1 : S_.BroadcastsInDim S100000x1 (![] : Fin 0 → Fin S100000x1.rank)
  reducesTo_S100000x1_S_d0_1 : S100000x1.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x128 .f32) (main_arg1 : FVec F S128x64 .f32) (main_arg2 : FVec F S100000x1 .f32) (main_arg3 : FVec F S64 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x128 : Shape := ⟨2, ![100000, 128]⟩
abbrev S128x64 : Shape := ⟨2, ![128, 64]⟩
abbrev S100000x1 : Shape := ⟨2, ![100000, 1]⟩
abbrev S64 : Shape := ⟨1, ![64]⟩
abbrev S1600000 : Shape := ⟨1, ![1600000]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S10000x64 : Shape := ⟨2, ![10000, 64]⟩

abbrev nBuf : Space → Nat
  | .hbm => 22
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S100000x1, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S100000x64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S1x64, .f32⟩
  | .hbm, ⟨21, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S10000x64, .f32⟩
  | .local _ .vmem, ⟨8, _⟩ => ⟨S10000x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S100000x1 : Shape := ⟨2, ![100000, 1]⟩
abbrev S64 : Shape := ⟨1, ![64]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 28
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S100000x1, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S100000x64, .f32⟩
  | .hbm, ⟨7, _⟩ => ⟨S100000x64, .f32⟩
  | .hbm, ⟨8, _⟩ => ⟨S100000x64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S1x64, .f32⟩
  | .hbm, ⟨23, _⟩ => ⟨S100000x64, .f32⟩
  | .hbm, ⟨24, _⟩ => ⟨S100000x64, .f32⟩
  | .hbm, ⟨25, _⟩ => ⟨S_, .f32⟩
  | .hbm, ⟨26, _⟩ => ⟨S100000x64, .f32⟩
  | .hbm, ⟨27, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S100000x1_S100000x64_0_1 : S100000x1.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.NodeMaps.lean ====
/-
  The two node-wise maps of a graph-convolution layer, as functions of whole arrays read index by index on the
  extended reals.

  * `scaledProduct h w nrm`: entry (r, c) is (∑ₖ h[r,k] · w[k,c]) · nrm[r,0] — the linear map followed by the
    per-node degree scaling;
  * `biasRelu agg b`: entry (r, c) is max (agg[r,c] + b[0,c]) 0 — the bias (one row, repeated over the nodes)
    and the rectifier.

  Between the two sits the edge aggregation (a gather at the edge sources followed by a scatter-add at the edge
  destinations), which both programs apply with the same host operations; it is carried as one function elsewhere
  and never opened. Also here: a one-column array repeated along the columns, read at an index.
-/
import Idealize.ShloMosaic.PureOps.Ideal
import Idealize.ShloMosaic.Lib.ValueIdx
import Idealize.ShloMosaic.Lib.Pipeline.Value

noncomputable section

open scoped BigOperators

namespace Cert.GraphConv

open Idealize.ShloMosaic Idealize.ShloMosaic.ValueIdx

/-- Entry (r, c) of the scaled product: the r-th row of `h` against the c-th column of `w`, times node r's factor. -/
def scaledProductAt (h : (⟨2, ![100000, 128]⟩ : Shape).Idx → EReal) (w : (⟨2, ![128, 64]⟩ : Shape).Idx → EReal)
    (nrm : (⟨2, ![100000, 1]⟩ : Shape).Idx → EReal) (r : Fin 100000) (c : Fin 64) : EReal :=
  (∑ k : Fin 128, h (ix2 r k) * w (ix2 k c)) * nrm (ix2 r (0 : Fin 1))

/-- The linear map followed by the per-node scaling, as one array. -/
def scaledProduct (h : (⟨2, ![100000, 128]⟩ : Shape).Idx → EReal) (w : (⟨2, ![128, 64]⟩ : Shape).Idx → EReal)
    (nrm : (⟨2, ![100000, 1]⟩ : Shape).Idx → EReal) : (⟨2, ![100000, 64]⟩ : Shape).Idx → EReal :=
  fun i => scaledProductAt h w nrm ⟨(i 0).val, idx2_lt0 i⟩ ⟨(i 1).val, idx2_lt1 i⟩

theorem scaledProduct_ix2 (h : (⟨2, ![100000, 128]⟩ : Shape).Idx → EReal) (w : (⟨2, ![128, 64]⟩ : Shape).Idx → EReal)
    (nrm : (⟨2, ![100000, 1]⟩ : Shape).Idx → EReal) (r : Fin 100000) (c : Fin 64) :
    scaledProduct h w nrm (ix2 r c) = scaledProductAt h w nrm r c := rfl

/-- Entry (r, c) after the bias and the rectifier. -/
def biasReluAt (agg : (⟨2, ![100000, 64]⟩ : Shape).Idx → EReal) (b : (⟨2, ![1, 64]⟩ : Shape).Idx → EReal)
    (r : Fin 100000) (c : Fin 64) : EReal :=
  max (agg (ix2 r c) + b (ix2 (0 : Fin 1) c)) (Ideal.ofBits .f32 0x00000000#32)

/-- The bias row added to every node's row, then the rectifier, as one array. -/
def biasRelu (agg : (⟨2, ![100000, 64]⟩ : Shape).Idx → EReal) (b : (⟨2, ![1, 64]⟩ : Shape).Idx → EReal) :
    (⟨2, ![100000, 64]⟩ : Shape).Idx → EReal :=
  fun i => biasReluAt agg b ⟨(i 0).val, idx2_lt0 i⟩ ⟨(i 1).val, idx2_lt1 i⟩

theorem biasRelu_ix2 (agg : (⟨2, ![100000, 64]⟩ : Shape).Idx → EReal) (b : (⟨2, ![1, 64]⟩ : Shape).Idx → EReal)
    (r : Fin 100000) (c : Fin 64) : biasRelu agg b (ix2 r c) = biasReluAt agg b r c := rfl

/-- An `[a, 1]` array repeated along the columns to `[a, b]` reads, at `(p, c)`, row `p`'s one entry. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv

end
-- ==== Proof.LinearNormBlocks.lean ====
/-
  The first launch (the linear map and the degree scaling, 20 row blocks of 5000 nodes), read as a value at the
  exact instance.

  One grid point multiplies its 5000 × 128 block of `h` by the whole 128 × 64 weight on the matrix unit, into a zero
  accumulator, and scales row p of the product by the block's p-th degree factor. Narrowing the operands to bf16 is
  the identity on extended reals, so entry (p, q) of what the point stores is (∑ₖ x[p,k] · w[k,q]) · n[p,0]
  (`linearNorm_apply`). Point t's blocks are rows 5000·t … 5000·t + 4999 of their arrays, the weight's block the
  whole weight, so what point t writes back is block t of `scaledProduct` of the three arrays (`flushed_eq`); the
  20 row blocks tile the 100000 rows (`covered`), and the output array ends holding `scaledProduct` (`final`).
-/
import proofs.«176789_j3470333575494_1_alg».proof.Proof.Gen.KernelIdeal.Frame
import proofs.«176789_j3470333575494_1_alg».proof.Proof.NodeMaps
import Idealize.ShloMosaic.PureOps.Ideal.Laws
import Idealize.ShloMosaic.Lib.Pipeline.Value
import Idealize.ShloMosaic.Lib.ValueIdx
set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.GraphConv.LinearNorm

open Cert.KernelIdeal Cert.KernelIdeal.Gen Cert.GraphConv

/-! ## The matrix product's operand indices -/

theorem lhs_axis0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_axis1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_axis0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_axis1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block product into a zero accumulator, at entry (p, q): row p of the left block against column q of the right. -/
theorem blockProduct_apply (a : FVec Ideal S5000x128 .bf16) (b : FVec Ideal S128x64 .bf16) (p : Fin 5000) (q : Fin 64) :
    matmul (F := Ideal) dot_S5000x128_S128x64_S5000x64_1_0_0_1_n_n none a b (constant S5000x64 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun ax => Fin.ext (by
    match ax with
    | ⟨0, _⟩ => exact lhs_axis0 _ _
    | ⟨1, _⟩ => exact (lhs_axis1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun ax => Fin.ext (by
    match ax with
    | ⟨0, _⟩ => exact (rhs_axis0 _ _).trans hk
    | ⟨1, _⟩ => exact rhs_axis1 _ _)
  rw [el, er]

/-- What one grid point stores, at entry (p, q): the block's row p against the weight's column q, times the block's
    p-th degree factor. -/
theorem linearNorm_apply (x0 : Vec Ideal S5000x128 .f32) (x1 : Vec Ideal S128x64 .f32) (x2 : Vec Ideal S5000x1 .f32)
    (p : Fin 5000) (q : Fin 64) :
    k0_pay1 (F := Ideal) x0 x1 x2 (ix2 p q) = (∑ k : Fin 128, x0 (ix2 p k) * x1 (ix2 k q)) * x2 (ix2 p (0 : Fin 1)) := by
  unfold k0_pay1
  rw [mulf_apply, blockProduct_apply, broadcastTo_a1_ab_apply]
  rfl

/-! ## The blocks of a grid point, as rows of the arrays -/

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the grid: point t takes row block t of `h`, of the degree factors and of the output,
    and the one block of the weight. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of point t's block of `h` is row 5000·t + p of `h`. -/
theorem featureBlock_apply (c : Dev nD) (t : Fin cfg0.N) (p : Fin 5000) (k : Fin 128) (r : Fin 100000)
    (hr : r.val = 5000 * t.val + p.val) :
    (iblk0 V c 0 t : Vec Ideal S5000x128 .f32) (ix2 p k) = (V c main_arg0 : S100000x128.Idx → EReal) (ix2 r k) := by
  unfold iblk0
  rw [View.read_apply]
  show V c main_arg0 _ = V c main_arg0 _
  congr 1
  funext a
  apply Fin.ext
  match a with
  | ⟨0, _⟩ => show win0_0.index t (0 : Fin 2) * 5000 + 1 * p.val = r.val; rw [(blockIndex t).1, hr]; omega
  | ⟨1, _⟩ => show win0_0.index t (1 : Fin 2) * 128 + 1 * k.val = k.val; rw [(blockIndex t).2.1]; omega

/-- Every point's block of the weight is the weight. -/
theorem weightBlock_apply (c : Dev nD) (t : Fin cfg0.N) (k : Fin 128) (q : Fin 64) :
    (iblk0 V c 1 t : Vec Ideal S128x64 .f32) (ix2 k q) = (V c main_arg1 : S128x64.Idx → EReal) (ix2 k q) := by
  unfold iblk0
  rw [View.read_apply]
  show V c main_arg1 _ = V c main_arg1 _
  congr 1
  funext a
  apply Fin.ext
  match a with
  | ⟨0, _⟩ => show win0_1.index t (0 : Fin 2) * 128 + 1 * k.val = k.val; rw [(blockIndex t).2.2.1]; omega
  | ⟨1, _⟩ => show win0_1.index t (1 : Fin 2) * 64 + 1 * q.val = q.val; rw [(blockIndex t).2.2.2.1]; omega

/-- Entry p of point t's block of degree factors is the factor of node 5000·t + p. -/
theorem factorBlock_apply (c : Dev nD) (t : Fin cfg0.N) (p : Fin 5000) (r : Fin 100000)
    (hr : r.val = 5000 * t.val + p.val) :
    (iblk0 V c 2 t : Vec Ideal S5000x1 .f32) (ix2 p (0 : Fin 1)) = (V c main_arg2 : S100000x1.Idx → EReal) (ix2 r (0 : Fin 1)) := by
  unfold iblk0
  rw [View.read_apply]
  show V c main_arg2 _ = V c main_arg2 _
  congr 1
  funext a
  apply Fin.ext
  match a with
  | ⟨0, _⟩ => show win0_2.index t (0 : Fin 2) * 5000 + 1 * p.val = r.val; rw [(blockIndex t).2.2.2.2.1, hr]; omega
  | ⟨1, _⟩ => show win0_2.index t (1 : Fin 2) * 1 + 1 * 0 = 0; rw [(blockIndex t).2.2.2.2.2.1]

/-! ## What a point writes back, the cover, the output array -/

/-- What point t writes back is block t of `scaledProduct` of the three arrays as the launch finds them. -/
theorem flushed_eq (c : Dev nD) (t : Fin cfg0.N) :
    (dat0 V c).flushed 3 t
      = ((cfg0.win 3).blk t).view.read (Elt Ideal) (scaledProduct (V c main_arg0) (V c main_arg1) (V c main_arg2)) := by
  show (cfg0.win 3).cut (grid0.coords t) ((dat0 V c).after 3 t) = _
  rw [after0_3]
  unfold out0_3
  rw [View.canon_unit_zero zeroOffsets]
  simp only [View.ld_unit_zero (S := S5000x128) zeroOffsets, View.ld_unit_zero (S := S128x64) zeroOffsets,
    View.ld_unit_zero (S := S5000x1) zeroOffsets]
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (ix2 p q)
    = scaledProduct (V c main_arg0) (V c main_arg1) (V c main_arg2) (((cfg0.win 3).blk t).view.emb (ix2 p q))
  refine (linearNorm_apply (iblk0 V c 0 t) (iblk0 V c 1 t) (iblk0 V c 2 t) p q).trans ?_
  have ht : t.val < 20 := lt_of_lt_of_eq t.isLt N_0
  have hr : 5000 * t.val + p.val < 100000 := by have := p.isLt; omega
  have he : ((cfg0.win 3).blk t).view.emb (ix2 p q) = ix2 (⟨5000 * t.val + p.val, hr⟩ : Fin 100000) q := by
    funext a
    apply Fin.ext
    match a with
    | ⟨0, _⟩ => show win0_3.index t (0 : Fin 2) * 5000 + 1 * p.val = 5000 * t.val + p.val; rw [(blockIndex t).2.2.2.2.2.2.1]; omega
    | ⟨1, _⟩ => show win0_3.index t (1 : Fin 2) * 64 + 1 * q.val = q.val; rw [(blockIndex t).2.2.2.2.2.2.2]; omega
  rw [he, scaledProduct_ix2]
  unfold scaledProductAt
  rw [factorBlock_apply V c t p ⟨5000 * t.val + p.val, hr⟩ rfl]
  refine congrArg (· * _) (Finset.sum_congr rfl fun k _ => ?_)
  rw [featureBlock_apply V c t p k ⟨5000 * t.val + p.val, hr⟩ rfl, weightBlock_apply V c t k q]

/-- An index of the output is in point t's block iff each coordinate is in the block's range on its axis. -/
theorem mem_block (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v0).slice (win0_3.rect t)).set ↔ _
  rw [View.set_slice_whole, Rect.mem_set_unit]
  exact Iff.rfl

/-- Every one of the 20 row blocks is some point's. -/
theorem block_onto : ∀ b : Fin 20, ∃ t : Fin cfg0.N, win0_3.index t = ![b.val, 0] :=
  (by decide +kernel : ∀ b : Fin 20, ∃ t : Fin grid0.N, win0_3.index t = ![b.val, 0])

/-- The row blocks tile the output: row r is in block r / 5000. -/
theorem covered (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := block_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- After the launch the output array holds `scaledProduct` of the three arrays as the launch found them. -/
theorem final (c : Dev nD) :
    (dat0 V c).arrAt 3 cfg0.N = scaledProduct (V c main_arg0) (V c main_arg1) (V c main_arg2) :=
  (dat0 V c).arrAt_eq_of_cover 3 _ (fun t _ => flushed_eq V c t) covered

end Cert.GraphConv.LinearNorm

end
-- ==== Proof.BiasReluBlocks.lean ====
/-
  The second launch (the bias and the rectifier, 10 row blocks of 10000 nodes), read as a value at the exact
  instance.

  One grid point adds the one bias row to every row of its 10000 × 64 block of the aggregated features and takes the
  maximum with zero: entry (p, q) of what it stores is max (x[p,q] + b[0,q]) 0 (`biasReluBlock_apply`). Point t's
  block is rows 10000·t … 10000·t + 9999, the bias block the whole row, so what point t writes back is block t of
  `biasRelu` of the two arrays (`flushed_eq`); the 10 row blocks tile the 100000 rows (`covered`), and the
  output array ends holding `biasRelu` (`final`).
-/
import proofs.«176789_j3470333575494_1_alg».proof.Proof.Gen.KernelIdeal.Frame
import proofs.«176789_j3470333575494_1_alg».proof.Proof.NodeMaps
import Idealize.ShloMosaic.Lib.Pipeline.Value
import Idealize.ShloMosaic.Lib.ValueIdx
import Idealize.ShloMosaic.Lib.ValueLayout
set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.GraphConv.BiasRelu

open Cert.KernelIdeal Cert.KernelIdeal.Gen Cert.GraphConv

/-- What one grid point stores, at entry (p, q): the block's entry plus the bias of column q, or zero if that is
    larger. -/
theorem biasReluBlock_apply (x0 : Vec Ideal S10000x64 .f32) (x1 : Vec Ideal S1x64 .f32) (p : Fin 10000) (q : Fin 64) :
    k1_pay1 (F := Ideal) x0 x1 (ix2 p q)
      = max (x0 (ix2 p q) + x1 (ix2 (0 : Fin 1) q)) (Ideal.ofBits .f32 0x00000000#32) := by
  unfold k1_pay1
  rw [maximumf_apply, addf_apply, shapeCast_self, shapeCast_self, broadcastTo_1b_ab_apply]
  rfl

/-! ## The blocks of a grid point, as rows of the arrays -/

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the grid: point t takes row block t of the aggregated features and of the output, and
    the one block of the bias row. -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of point t's block of the aggregated features is row 10000·t + p of that array. -/
theorem aggBlock_apply (c : Dev nD) (t : Fin cfg1.N) (p : Fin 10000) (q : Fin 64) (r : Fin 100000)
    (hr : r.val = 10000 * t.val + p.val) :
    (iblk1 V c 0 t : Vec Ideal S10000x64 .f32) (ix2 p q) = (V c main_v10 : S100000x64.Idx → EReal) (ix2 r q) := by
  unfold iblk1
  rw [View.read_apply]
  show V c main_v10 _ = V c main_v10 _
  congr 1
  funext a
  apply Fin.ext
  match a with
  | ⟨0, _⟩ => show win1_0.index t (0 : Fin 2) * 10000 + 1 * p.val = r.val; rw [(blockIndex t).1, hr]; omega
  | ⟨1, _⟩ => show win1_0.index t (1 : Fin 2) * 64 + 1 * q.val = q.val; rw [(blockIndex t).2.1]; omega

/-- Every point's block of the bias row is the bias row. -/
theorem biasBlock_apply (c : Dev nD) (t : Fin cfg1.N) (q : Fin 64) :
    (iblk1 V c 1 t : Vec Ideal S1x64 .f32) (ix2 (0 : Fin 1) q) = (V c main_v11 : S1x64.Idx → EReal) (ix2 (0 : Fin 1) q) := by
  unfold iblk1
  rw [View.read_apply]
  show V c main_v11 _ = V c main_v11 _
  congr 1
  funext a
  apply Fin.ext
  match a with
  | ⟨0, _⟩ => show win1_1.index t (0 : Fin 2) * 1 + 1 * 0 = 0; rw [(blockIndex t).2.2.1]
  | ⟨1, _⟩ => show win1_1.index t (1 : Fin 2) * 64 + 1 * q.val = q.val; rw [(blockIndex t).2.2.2.1]; omega

/-! ## What a point writes back, the cover, the output array -/

/-- What point t writes back is block t of `biasRelu` of the two arrays as the launch finds them. -/
theorem flushed_eq (c : Dev nD) (t : Fin cfg1.N) :
    (dat1 V c).flushed 2 t
      = ((cfg1.win 2).blk t).view.read (Elt Ideal) (biasRelu (V c main_v10) (V c main_v11)) := by
  show (cfg1.win 2).cut (grid1.coords t) ((dat1 V c).after 2 t) = _
  rw [after1_2]
  unfold out1_2
  rw [View.canon_unit_zero zeroOffsets]
  simp only [View.ld_unit_zero (S := S10000x64) zeroOffsets, View.ld_unit_zero (S := S1x64) zeroOffsets]
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (ix2 p q)
    = biasRelu (V c main_v10) (V c main_v11) (((cfg1.win 2).blk t).view.emb (ix2 p q))
  refine (biasReluBlock_apply (iblk1 V c 0 t) (iblk1 V c 1 t) p q).trans ?_
  have ht : t.val < 10 := lt_of_lt_of_eq t.isLt N_1
  have hr : 10000 * t.val + p.val < 100000 := by have := p.isLt; omega
  have he : ((cfg1.win 2).blk t).view.emb (ix2 p q) = ix2 (⟨10000 * t.val + p.val, hr⟩ : Fin 100000) q := by
    funext a
    apply Fin.ext
    match a with
    | ⟨0, _⟩ => show win1_2.index t (0 : Fin 2) * 10000 + 1 * p.val = 10000 * t.val + p.val; rw [(blockIndex t).2.2.2.2.1]; omega
    | ⟨1, _⟩ => show win1_2.index t (1 : Fin 2) * 64 + 1 * q.val = q.val; rw [(blockIndex t).2.2.2.2.2]; omega
  rw [he, biasRelu_ix2]
  unfold biasReluAt
  rw [aggBlock_apply V c t p q ⟨10000 * t.val + p.val, hr⟩ rfl, biasBlock_apply V c t q]

/-- An index of the output is in point t's block iff each coordinate is in the block's range on its axis. -/
theorem mem_block (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v12).slice (win1_2.rect t)).set ↔ _
  rw [View.set_slice_whole, Rect.mem_set_unit]
  exact Iff.rfl

/-- Every one of the 10 row blocks is some point's. -/
theorem block_onto : ∀ b : Fin 10, ∃ t : Fin cfg1.N, win1_2.index t = ![b.val, 0] :=
  (by decide +kernel : ∀ b : Fin 10, ∃ t : Fin grid1.N, win1_2.index t = ![b.val, 0])

/-- The row blocks tile the output: row r is in block r / 10000. -/
theorem covered (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := block_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the launch the output array holds `biasRelu` of the two arrays as the launch found them. -/
theorem final (c : Dev nD) :
    (dat1 V c).arrAt 2 cfg1.N = biasRelu (V c main_v10) (V c main_v11) :=
  (dat1 V c).arrAt_eq_of_cover 2 _ (fun t _ => flushed_eq V c t) covered

end Cert.GraphConv.BiasRelu

end
-- ==== Proof.EdgeAggregate.lean ====
/-
  The edge aggregation of the layer, as ONE function of the node features and the two edge lists: negative source
  indices wrapped by the number of nodes, the features gathered at the edge sources, and the gathered rows added
  into a zero array at the edge destinations. Both programs apply exactly these host operations to their node
  features; the certificate proves the features going in equal and never opens this function.
-/
import proofs.«176789_j3470333575494_1_alg».proof.KernelIdeal
import proofs.«176789_j3470333575494_1_alg».proof.Proof.Gen.KernelIdeal
import Idealize.ShloMosaic.PureOps.Ideal

noncomputable section

namespace Cert.GraphConv

open Idealize.ShloMosaic Cert.KernelIdeal Cert.KernelIdeal.Facts₀

/-- Messages along the edges, summed at their destinations. -/
def aggregate (X : FVec Ideal S100000x64 .f32) (src dst : IVec S1600000 32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 X
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

end Cert.GraphConv

end
-- ==== Proof.KernelValue.lean ====
/-
  The kernel program's result as one function of its arguments, at the exact instance.

  The program is: the first launch (linear map and degree scaling), the edge aggregation on the host, the bias row
  reshaped to one row, the second launch (bias and rectifier). Its buffers at the last boundary are a fold through
  those four stretches. Read backwards at the result buffer: the second launch leaves `biasRelu` of its two input
  arrays (BiasReluBlocks); those are what the host stretch wrote, `aggregate` of the first launch's output and the
  two edge lists, and the reshaped bias; the first launch's output is `scaledProduct` of the three float arguments
  (LinearNormBlocks); and the edge lists and the bias are still the launch memory's, no segment having written them.
-/
import proofs.«176789_j3470333575494_1_alg».proof.Proof.LinearNormBlocks
import proofs.«176789_j3470333575494_1_alg».proof.Proof.BiasReluBlocks
import proofs.«176789_j3470333575494_1_alg».proof.Proof.EdgeAggregate
import proofs.«176789_j3470333575494_1_alg».proof.Proof.KernelRun
import Idealize.ShloMosaic.Lib.StableHlo.Run

set_option maxRecDepth 16384

noncomputable section

open Idealize.ShloMosaic Idealize.ShloMosaic.TcCoe Idealize.SL.Sem Idealize.ShloMosaic.StableHlo

namespace Cert.GraphConv.Kernel

open Cert.KernelIdeal Cert.KernelIdeal.Gen Cert.KernelIdeal.Facts₀ Cert.GraphConv

variable (m : (ℓ : Loc nD τ sig) → Buf (Elt Ideal) ℓ) (ρ : Dev nD → PrngReg)

/-- The layer as one function of the six arguments. -/
def layer (h : FVec Ideal S100000x128 .f32) (w : FVec Ideal S128x64 .f32) (nrm : FVec Ideal S100000x1 .f32)
    (b : FVec Ideal S64 .f32) (src dst : IVec S1600000 32) : FVec Ideal S100000x64 .f32 :=
  biasRelu (aggregate (scaledProduct h w nrm) src dst) (shapeCast S1x64 b Facts₀.shapeCasts_S64_S1x64)

/-- After the first launch its output buffer holds the scaled product of the launch memory's three float arguments. -/
theorem features (c : Dev nD) :
    W1 m ρ c (Proc.devRef .tc main_v0)
      = scaledProduct (m ((c.tc : Thread nD τ).loc main_arg0)) (m ((c.tc : Thread nD τ).loc main_arg1)) (m ((c.tc : Thread nD τ).loc main_arg2)) :=
  (W1_arr m ρ c 3).trans (LinearNorm.final (V0 m ρ) c)

/-- The first launch writes neither edge list nor the bias. -/
theorem kept_src (c : Dev nD) : W1 m ρ c (Proc.devRef .tc main_arg4) = m ((c.tc : Thread nD τ).loc main_arg4) :=
  W1_of_ne m ρ c main_arg4 (by decide)
theorem kept_dst (c : Dev nD) : W1 m ρ c (Proc.devRef .tc main_arg5) = m ((c.tc : Thread nD τ).loc main_arg5) :=
  W1_of_ne m ρ c main_arg5 (by decide)
theorem kept_bias (c : Dev nD) : W1 m ρ c (Proc.devRef .tc main_arg3) = m ((c.tc : Thread nD τ).loc main_arg3) :=
  W1_of_ne m ρ c main_arg3 (by decide)

/-- What the host stretch leaves in the aggregated-features buffer, over any contents it starts from. -/
theorem host_agg (W : Valuation τ sig (Elt Ideal)) :
    StableHlo.after hostOps1 W (Proc.devRef .tc main_v10)
      = aggregate (W (Proc.devRef .tc main_v0)) (W (Proc.devRef .tc main_arg4)) (W (Proc.devRef .tc main_arg5)) := by
  after_results
  rfl

/-- What the host stretch leaves in the one-row bias buffer. -/
theorem host_bias (W : Valuation τ sig (Elt Ideal)) :
    StableHlo.after hostOps1 W (Proc.devRef .tc main_v11)
      = shapeCast S1x64 (W (Proc.devRef .tc main_arg3)) Facts₀.shapeCasts_S64_S1x64 := by
  after_results
  rfl

/-- THE RESULT BUFFER at the last boundary is `layer` of the launch memory's arguments. -/
theorem result (c : Dev nD) :
    W3 m ρ c (Proc.devRef .tc main_v12)
      = layer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  refine (W3_arr m ρ c 2).trans ((BiasRelu.final (V2 m ρ) c).trans ?_)
  unfold layer
  have e10 : (V2 m ρ c main_v10 : FVec Ideal S100000x64 .f32)
      = aggregate (scaledProduct (m ((c.tc : Thread nD τ).loc main_arg0)) (m ((c.tc : Thread nD τ).loc main_arg1)) (m ((c.tc : Thread nD τ).loc main_arg2)))
          (m ((c.tc : Thread nD τ).loc main_arg4)) (m ((c.tc : Thread nD τ).loc main_arg5)) := by
    show StableHlo.after hostOps1 (W1 m ρ c) (Proc.devRef .tc main_v10) = _
    rw [host_agg, features, kept_src, kept_dst]
  have e11 : (V2 m ρ c main_v11 : FVec Ideal S1x64 .f32) = shapeCast S1x64 (m ((c.tc : Thread nD τ).loc main_arg3)) Facts₀.shapeCasts_S64_S1x64 := by
    show StableHlo.after hostOps1 (W1 m ρ c) (Proc.devRef .tc main_v11) = _
    rw [host_bias, kept_bias]
  rw [e10, e11]

/-- The kernel program's run with its result named: `layer` of the arguments, the arguments unchanged. -/
theorem run : θ_run defs (onTc (τ := τ) (main (F := Ideal))) ⟨m, fun _ => 0, ρ⟩ (fun r => ∀ c : Dev nD,
      r.2.mem ((c.tc : Thread nD τ).loc main_v12)
        = layer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (Cert.KernelIdeal.Run.run_main m ρ)

end Cert.GraphConv.Kernel

end
-- ==== Proof.ReferenceValue.lean ====
/-
  The reference's result is the same `layer` of its arguments, at the exact instance.

  Read one operation at a time: the host's matrix product at entry (r, c) is the sum over k of h[r,k]·w[k,c], the
  degree factors repeated along the columns read node r's factor, so the product of the two is `scaledProduct`
  (`features_eq`); the gather and scatter-add that follow are the operations `aggregate` names, applied to equal
  features (`aggregate_eq`); the bias broadcast first to one row and then over the nodes reads b[c], as the kernel's
  reshaped bias row does at (0, c); the called rectifier is the maximum with a broadcast zero.
-/
import proofs.«176789_j3470333575494_1_alg».proof.Proof.Gen.ReferenceIdeal.Read
import proofs.«176789_j3470333575494_1_alg».proof.Proof.NodeMaps
import proofs.«176789_j3470333575494_1_alg».proof.Proof.EdgeAggregate
import Idealize.ShloMosaic.Lib.ValueLayout

noncomputable section

open scoped BigOperators
open Idealize.ShloMosaic Idealize.ShloMosaic.ValueIdx

namespace Cert.GraphConv.Reference

open Cert.ReferenceIdeal Cert.ReferenceIdeal.Read Cert.GraphConv

/-- The reference's scaled features are `scaledProduct` of its three float arguments. -/
theorem features_eq (x0 : FVec Ideal S100000x128 .f32) (x1 : FVec Ideal S128x64 .f32) (x2 : FVec Ideal S100000x1 .f32) :
    val_main_v2 (F := Ideal) x0 x1 x2 = scaledProduct x0 x1 x2 := by
  funext i
  obtain ⟨r, c, rfl⟩ : ∃ (r : Fin 100000) (c : Fin 64), i = ix2 r c := ⟨i 0, i 1, eq_ix2 i⟩
  rw [val_main_v2_apply, val_main_v0_apply, val_main_v1_apply, scaledProduct_ix2]
  unfold scaledProductAt
  have e1 : ∀ k : Fin 128, lidx_main_v0 (ix2 r c) k = ix2 r k := fun k => funext fun a => Fin.ext (by
    match a with | ⟨0, _⟩ => rfl | ⟨1, _⟩ => rfl)
  have e2 : ∀ k : Fin 128, ridx_main_v0 (ix2 r c) k = ix2 k c := fun k => funext fun a => Fin.ext (by
    match a with | ⟨0, _⟩ => rfl | ⟨1, _⟩ => rfl)
  have e3 : idx_main_v1 (ix2 r c) = ix2 r (0 : Fin 1) := funext fun a => Fin.ext (by
    match a with | ⟨0, _⟩ => rfl | ⟨1, _⟩ => rfl)
  simp only [e1, e2, e3, Ideal.mulf_def]

/-- The reference's aggregated features are `aggregate` of `scaledProduct`: the same host operations on equal
    features. -/
theorem aggregate_eq (x0 : FVec Ideal S100000x128 .f32) (x1 : FVec Ideal S128x64 .f32) (x2 : FVec Ideal S100000x1 .f32)
    (x4 x5 : IVec S1600000 32) :
    val_main_v12 (F := Ideal) x0 x1 x2 x4 x5 = aggregate (scaledProduct x0 x1 x2) x4 x5 := by
  unfold val_main_v12 val_main_v9
  rw [features_eq]
  rfl

/-- THE REFERENCE'S RESULT is the bias and rectifier applied to the aggregated scaled product. -/
theorem result_eq (x0 : FVec Ideal S100000x128 .f32) (x1 : FVec Ideal S128x64 .f32) (x2 : FVec Ideal S100000x1 .f32)
    (x3 : FVec Ideal S64 .f32) (x4 x5 : IVec S1600000 32) :
    val_main_v16 (F := Ideal) x0 x1 x2 x3 x4 x5
      = biasRelu (aggregate (scaledProduct x0 x1 x2) x4 x5)
          (shapeCast Cert.KernelIdeal.S1x64 x3 Cert.KernelIdeal.Facts₀.shapeCasts_S64_S1x64) := by
  funext i
  obtain ⟨r, c, rfl⟩ : ∃ (r : Fin 100000) (c : Fin 64), i = ix2 r c := ⟨i 0, i 1, eq_ix2 i⟩
  rw [val_main_v16_apply, val_main_v15_apply, aggregate_eq, val_main_v14_apply, val_main_v13_apply,
    val_main_call0_v0_apply, val_main_call0_cst_apply, biasRelu_ix2]
  unfold biasReluAt
  rw [shapeCast_a_1a_apply]
  have e : idx_main_v13 (idx_main_v14 (ix2 r c)) = ix1 c := funext fun a => Fin.ext (by
    match a with | ⟨0, _⟩ => rfl)
  simp only [e, Ideal.maximumf_def, Ideal.addf_def, Ideal.ofBits_def]

end Cert.GraphConv.Reference

end
-- ==== Proof.lean ====
/-
  A graph-convolution layer in two launches against its one-expression reference, over the extended reals.

  Both programs compute, for node features h, weight w, per-node degree factors n, bias b and edge lists src, dst,
      relu ( aggregate ( (h · w) ⊙ n ; src, dst ) + b ),
  where `aggregate` gathers rows at the edge sources and adds them up at the edge destinations. The kernel's first
  launch forms (h · w) ⊙ n row block by row block on the matrix unit (its narrowing of the operands is the identity on
  extended reals, and the block products are the rows of the whole product); the host applies the same aggregation in
  both programs; the second launch adds the bias row and takes the maximum with zero, as the reference's broadcast
  bias and called rectifier do. No entry is ever regrouped or distributed over a sum, so the equation holds at the
  infinities too and the precondition is not used.

  Proof/NodeMaps: the two node-wise maps as array functions; Proof/EdgeAggregate: the shared aggregation;
  Proof/LinearNormBlocks and Proof/BiasReluBlocks: each launch's output array; Proof/KernelRun and Proof/KernelValue:
  the kernel program's run with its result named; Proof/ReferenceValue: the reference's result is the same function.
-/
import proofs.«176789_j3470333575494_1_alg».proof.Defs
import proofs.«176789_j3470333575494_1_alg».proof.Proof.Gen.Kernel
import proofs.«176789_j3470333575494_1_alg».proof.Proof.Gen.Kernel.Frame
import proofs.«176789_j3470333575494_1_alg».proof.Proof.Gen.KernelIdeal
import proofs.«176789_j3470333575494_1_alg».proof.Proof.Gen.KernelIdeal.Frame
import proofs.«176789_j3470333575494_1_alg».proof.Proof.Gen.ReferenceIdeal
import proofs.«176789_j3470333575494_1_alg».proof.Proof.Gen.ReferenceIdeal.Run
import proofs.«176789_j3470333575494_1_alg».proof.Proof.Gen.ReferenceIdeal.Read
import proofs.«176789_j3470333575494_1_alg».proof.Proof.Gen.Pre_finite_inputs
import proofs.«176789_j3470333575494_1_alg».proof.Proof.KernelValue
import proofs.«176789_j3470333575494_1_alg».proof.Proof.ReferenceValue

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does its reading at the exact instance. -/
theorem frame_kernelIdeal : Cert.frame_KernelIdeal := fun m ρ _ => Cert.KernelIdeal.Gen.frame m ρ

/-- The reference is host operations only: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the layer of their (agreeing) arguments in the result buffer. -/
theorem algebraic : Cert.algebraic_KernelIdeal_ReferenceIdeal := by
  intro m ρ m' ρ' _ hagree
  refine ⟨_, Cert.GraphConv.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.GraphConv.Reference.result_eq,
    (hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
